-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8000002x5 : Shape := ⟨2, ![8000002, 5]⟩
abbrev S4096x3 : Shape := ⟨2, ![4096, 3]⟩
abbrev S4096x2 : Shape := ⟨2, ![4096, 2]⟩
abbrev S_ : Shape := ⟨0, ![]⟩

class Facts : Prop where
  bcast_S_S8000002x5 : S_.BroadcastsInDim S8000002x5 (![] : Fin 0 → Fin S8000002x5.rank)
  reducesTo_S8000002x5_S_d0_1 : S8000002x5.ReducesTo [0, 1] S_
  h_S_ : 0 < S_.numel
  bcast_S_S4096x3 : S_.BroadcastsInDim S4096x3 (![] : Fin 0 → Fin S4096x3.rank)
  reducesTo_S4096x3_S_d0_1 : S4096x3.ReducesTo [0, 1] S_

variable [Facts]

def fn {F : FTy → Type} [FloatOps F] (main_arg0 : FVec F S8000002x5 .f32) (main_arg1 : FVec F S4096x3 .f32) (main_arg2 : IVec S4096x2 32) : IVec S_ 1 :=
  let main_v0 : FVec F S8000002x5 .f32 := Host.absf main_arg0
  let main_cst : FVec F S_ .f32 := constant S_ .f32 0x7F800000#32
  let main_v1 : FVec F S8000002x5 .f32 := broadcastInDim S8000002x5 ![] bcast_S_S8000002x5 main_cst
  let main_v2 : IVec S8000002x5 1 := cmpf .olt main_v0 main_v1
  let main_c : IVec S_ 1 := constantI S_ 1 1#1
  let main_v3 : IVec S_ 1 := (fun x v => Host.reduce IntOp.andi x v reducesTo_S8000002x5_S_d0_1 h_S_) main_v2 main_c
  let main_v4 : FVec F S4096x3 .f32 := Host.absf main_arg1
  let main_cst_0 : FVec F S_ .f32 := constant S_ .f32 0x7F800000#32
  let main_v5 : FVec F S4096x3 .f32 := broadcastInDim S4096x3 ![] bcast_S_S4096x3 main_cst_0
  let main_v6 : IVec S4096x3 1 := cmpf .olt main_v4 main_v5
  let main_c_1 : IVec S_ 1 := constantI S_ 1 1#1
  let main_v7 : IVec S_ 1 := (fun x v => Host.reduce IntOp.andi x v reducesTo_S4096x3_S_d0_1 h_S_) main_v6 main_c_1
  let main_v8 : IVec S_ 1 := andi main_v3 main_v7
  main_v8
-- ==== Kernel.lean ====
abbrev S8000002x5 : Shape := ⟨2, ![8000002, 5]⟩
abbrev S4096x3 : Shape := ⟨2, ![4096, 3]⟩
abbrev S4096x2 : Shape := ⟨2, ![4096, 2]⟩
abbrev S2x2 : Shape := ⟨2, ![2, 2]⟩
abbrev S2x8000002 : Shape := ⟨2, ![2, 8000002]⟩
abbrev S28672x5 : Shape := ⟨2, ![28672, 5]⟩
abbrev S2x28672 : Shape := ⟨2, ![2, 28672]⟩
abbrev S5x28672 : Shape := ⟨2, ![5, 28672]⟩
abbrev S1x28672 : Shape := ⟨2, ![1, 28672]⟩
abbrev S28672 : Shape := ⟨1, ![28672]⟩
abbrev S1x1 : Shape := ⟨2, ![1, 1]⟩
abbrev S2x8000000 : Shape := ⟨2, ![2, 8000000]⟩

abbrev nBuf : Space → Nat
  | .hbm => 6
  | .vmem => 5
  | .smem => 0
  | _ => 0

abbrev bufTy : (tb : Table) → Fin (tcTables nBuf tb) → BufTy
  | .hbm, ⟨0, _⟩ => ⟨S8000002x5, .f32⟩
  | .hbm, ⟨1, _⟩ => ⟨S4096x3, .f32⟩
  | .hbm, ⟨2, _⟩ => ⟨S4096x2, .i32⟩
  | .hbm, ⟨3, _⟩ => ⟨S2x2, .f32⟩
  | .hbm, ⟨4, _⟩ => ⟨S2x8000002, .f32⟩
  | .hbm, ⟨5, _⟩ => ⟨S2x8000000, .f32⟩
  | .local _ .vmem, ⟨0, _⟩ => ⟨S2x2, .f32⟩
  | .local _ .vmem, ⟨1, _⟩ => ⟨S28672x5, .f32⟩
  | .local _ .vmem, ⟨2, _⟩ => ⟨S28672x5, .f32⟩
  | .local _ .vmem, ⟨3, _⟩ => ⟨S2x28672, .f32⟩
  | .local _ .vmem, ⟨4, _⟩ => ⟨S2x28672, .f32⟩
  | _, _ => ⟨S8000002x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![280], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S28672x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x28672 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S8000002x5_S2x2_0_0 : S8000002x5.Slices ![0, 0] S2x2
  inb_S28672x5_S28672x5_0_0 : ∀ a, (![0, 0] : Fin 2 → Nat) a + S28672x5.size a ≤ S28672x5.size a
  h_S28672x5 : 0 < S28672x5.numel
  transposes_S28672x5_p1_0_S5x28672 : S28672x5.Transposes [1, 0] S5x28672
  slices_S5x28672_o0_0_S1x28672 : S5x28672.Slices ![0, 0] S1x28672
  shapeCasts_S1x28672_S28672 : S1x28672.ShapeCasts S28672
  slices_S5x28672_o1_0_S1x28672 : S5x28672.Slices ![1, 0] S1x28672
  slices_S5x28672_o2_0_S1x28672 : S5x28672.Slices ![2, 0] S1x28672
  slices_S5x28672_o4_0_S1x28672 : S5x28672.Slices ![4, 0] S1x28672
  inb_S2x2_S2x2_0_0 : ∀ a, (![0, 0] : Fin 2 → Nat) a + S2x2.size a ≤ S2x2.size a
  h_S2x2 : 0 < S2x2.numel
  shapeCasts_S2x2_S2x2 : S2x2.ShapeCasts S2x2
  slices_S2x2_o0_0_S1x1 : S2x2.Slices ![0, 0] S1x1
  inpos_S1x1_p0_0 : ∀ a, (![0, 0] : Fin 2 → Nat) a < S1x1.size a
  slices_S2x2_o0_1_S1x1 : S2x2.Slices ![0, 1] S1x1
  inb_S2x28672_S1x28672_0_0 : ∀ a, (![0, 0] : Fin 2 → Nat) a + S1x28672.size a ≤ S2x28672.size a
  h_S1x28672 : 0 < S1x28672.numel
  shapeCasts_S28672_S1x28672 : S28672.ShapeCasts S1x28672
  slices_S2x2_o1_0_S1x1 : S2x2.Slices ![1, 0] S1x1
  slices_S2x2_o1_1_S1x1 : S2x2.Slices ![1, 1] S1x1
  inb_S2x28672_S1x28672_1_0 : ∀ a, (![1, 0] : Fin 2 → Nat) a + S1x28672.size a ≤ S2x28672.size a
  slices_S2x8000002_S2x8000000_0_2 : S2x8000002.Slices ![0, 2] S2x8000000
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2x2.size a ≤ S2x2.size a
  hwx0_0 : ∀ i : grid0.Coords, EltTy.bits .f32 = 32 ∨ (Rect.block (s := S2x2) S2x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S28672x5.size a < S8000002x5.size a
  hwx0_1 : ∀ i : grid0.Coords, EltTy.bits .f32 = 32 ∨ (Rect.unit (s := S8000002x5) (fun a => cc0_transform_1 i a * S28672x5.size a) (fun a => (Pipeline.Clip.of (cc0_transform_1 i a) (S28672x5.size a) (S8000002x5.size a)).extent (S28672x5.size a)) fun a => Pipeline.Clip.inb (Pipeline.Clip.ok_of (hstart0_1 i a))).WholeWords (EltTy.packing .f32)
  hwxs0_1 : ∀ i : grid0.Coords, EltTy.bits .f32 = 32 ∨ (Rect.unit (s := S28672x5) (fun _ => 0) (fun a => (Pipeline.Clip.of (cc0_transform_1 i a) (S28672x5.size a) (S8000002x5.size a)).extent (S28672x5.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S2x28672.size a < S2x8000002.size a
  hwx0_2 : ∀ i : grid0.Coords, EltTy.bits .f32 = 32 ∨ (Rect.unit (s := S2x8000002) (fun a => cc0_transform_2 i a * S2x28672.size a) (fun a => (Pipeline.Clip.of (cc0_transform_2 i a) (S2x28672.size a) (S2x8000002.size a)).extent (S2x28672.size a)) fun a => Pipeline.Clip.inb (Pipeline.Clip.ok_of (hstart0_2 i a))).WholeWords (EltTy.packing .f32)
  hwxs0_2 : ∀ i : grid0.Coords, EltTy.bits .f32 = 32 ∨ (Rect.unit (s := S2x28672) (fun _ => 0) (fun a => (Pipeline.Clip.of (cc0_transform_2 i a) (S2x28672.size a) (S2x8000002.size a)).extent (S2x28672.size a)) fun a => (Nat.zero_add _).trans_le (Pipeline.Clip.extent_le (Pipeline.Clip.ok_of (hstart0_2 i a)))).WholeWords (EltTy.packing .f32)

variable [Facts₀]

abbrev win0_0 : Pipeline.Window sig grid0 :=
  Pipeline.Window.ofSpec (Memref.whole main_v0) S2x2.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg0) S28672x5.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v1) S2x28672.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8000002x5 : Shape := ⟨2, ![8000002, 5]⟩
abbrev S4096x3 : Shape := ⟨2, ![4096, 3]⟩
abbrev S4096x2 : Shape := ⟨2, ![4096, 2]⟩
abbrev S2x2 : Shape := ⟨2, ![2, 2]⟩
abbrev S8000000x5 : Shape := ⟨2, ![8000000, 5]⟩
abbrev S8000000x2 : Shape := ⟨2, ![8000000, 2]⟩
abbrev S2x1x2 : Shape := ⟨3, ![2, 1, 2]⟩
abbrev S1x8000000x2 : Shape := ⟨3, ![1, 8000000, 2]⟩
abbrev S2x8000000x2 : Shape := ⟨3, ![2, 8000000, 2]⟩
abbrev S_ : Shape := ⟨0, ![]⟩
abbrev S2x8000000 : Shape := ⟨2, ![2, 8000000]⟩
abbrev S8000000x1 : Shape := ⟨2, ![8000000, 1]⟩
abbrev S8000000 : Shape := ⟨1, ![8000000]⟩
abbrev S1x8000000 : Shape := ⟨2, ![1, 8000000]⟩

abbrev nBuf : Space → Nat
  | .hbm => 29
  | .vmem => 0
  | .smem => 0
  | _ => 0

abbrev bufTy : (tb : Table) → Fin (tcTables nBuf tb) → BufTy
  | .hbm, ⟨0, _⟩ => ⟨S8000002x5, .f32⟩
  | .hbm, ⟨1, _⟩ => ⟨S4096x3, .f32⟩
  | .hbm, ⟨2, _⟩ => ⟨S4096x2, .i32⟩
  | .hbm, ⟨3, _⟩ => ⟨S2x2, .f32⟩
  | .hbm, ⟨4, _⟩ => ⟨S8000000x5, .f32⟩
  | .hbm, ⟨5, _⟩ => ⟨S8000000x2, .f32⟩
  | .hbm, ⟨6, _⟩ => ⟨S2x1x2, .f32⟩
  | .hbm, ⟨7, _⟩ => ⟨S1x8000000x2, .f32⟩
  | .hbm, ⟨8, _⟩ => ⟨S2x8000000x2, .f32⟩
  | .hbm, ⟨9, _⟩ => ⟨S2x8000000x2, .f32⟩
  | .hbm, ⟨10, _⟩ => ⟨S2x8000000x2, .f32⟩
  | .hbm, ⟨11, _⟩ => ⟨S2x8000000x2, .f32⟩
  | .hbm, ⟨12, _⟩ => ⟨S_, .f32⟩
  | .hbm, ⟨13, _⟩ => ⟨S2x8000000, .f32⟩
  | .hbm, ⟨14, _⟩ => ⟨S2x8000000, .f32⟩
  | .hbm, ⟨15, _⟩ => ⟨S_, .f32⟩
  | .hbm, ⟨16, _⟩ => ⟨S2x8000000, .f32⟩
  | .hbm, ⟨17, _⟩ => ⟨S2x8000000, .f32⟩
  | .hbm, ⟨18, _⟩ => ⟨S8000000x1, .f32⟩
  | .hbm, ⟨19, _⟩ => ⟨S8000000, .f32⟩
  | .hbm, ⟨20, _⟩ => ⟨S8000000x1, .f32⟩
  | .hbm, ⟨21, _⟩ => ⟨S8000000, .f32⟩
  | .hbm, ⟨22, _⟩ => ⟨S8000000, .f32⟩
  | .hbm, ⟨23, _⟩ => ⟨S_, .f32⟩
  | .hbm, ⟨24, _⟩ => ⟨S8000000, .f32⟩
  | .hbm, ⟨25, _⟩ => ⟨S8000000, .f32⟩
  | .hbm, ⟨26, _⟩ => ⟨S1x8000000, .f32⟩
  | .hbm, ⟨27, _⟩ => ⟨S2x8000000, .f32⟩
  | .hbm, ⟨28, _⟩ => ⟨S2x8000000, .f32⟩
  | _, _ => ⟨S8000002x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]

class Facts₀ : Prop where
  slices_S8000002x5_S2x2_0_0 : S8000002x5.Slices ![0, 0] S2x2
  slices_S8000002x5_S8000000x5_2_0 : S8000002x5.Slices ![2, 0] S8000000x5
  slices_S8000000x5_S8000000x2_0_0 : S8000000x5.Slices ![0, 0] S8000000x2
  bcast_S2x2_S2x1x2_0_2 : S2x2.BroadcastsInDim S2x1x2 (![0, 2] : Fin 2 → Fin S2x1x2.rank)
  bcast_S8000000x2_S1x8000000x2_1_2 : S8000000x2.BroadcastsInDim S1x8000000x2 (![1, 2] : Fin 2 → Fin S1x8000000x2.rank)
  bcast_S2x1x2_S2x8000000x2_0_1_2 : S2x1x2.BroadcastsInDim S2x8000000x2 (![0, 1, 2] : Fin 3 → Fin S2x8000000x2.rank)
  bcast_S1x8000000x2_S2x8000000x2_0_1_2 : S1x8000000x2.BroadcastsInDim S2x8000000x2 (![0, 1, 2] : Fin 3 → Fin S2x8000000x2.rank)
  reducesTo_S2x8000000x2_S2x8000000_d2 : S2x8000000x2.ReducesTo [2] S2x8000000
  h_S_ : 0 < S_.numel
  bcast_S_S2x8000000 : S_.BroadcastsInDim S2x8000000 (![] : Fin 0 → Fin S2x8000000.rank)
  slices_S8000000x5_S8000000x1_0_2 : S8000000x5.Slices ![0, 2] S8000000x1
  shapeCasts_S8000000x1_S8000000 : S8000000x1.ShapeCasts S8000000
  slices_S8000000x5_S8000000x1_0_4 : S8000000x5.Slices ![0, 4] S8000000x1
  bcast_S_S8000000 : S_.BroadcastsInDim S8000000 (![] : Fin 0 → Fin S8000000.rank)
  bcast_S8000000_S1x8000000_1 : S8000000.BroadcastsInDim S1x8000000 (![1] : Fin 1 → Fin S1x8000000.rank)
  bcast_S1x8000000_S2x8000000_0_1 : S1x8000000.BroadcastsInDim S2x8000000 (![0, 1] : Fin 2 → Fin S2x8000000.rank)

variable [Facts₀]

class Facts : Prop extends Facts₀ where

variable [Facts]
-- ==== Proof.Spec.lean ====
/-
  The function both programs compute, stated once and for every float instance.

  A node is a row of five numbers (x, y, ·, ·, ·); the first two rows are the robots. The affinity of node n to robot r is
      (n₂ + n₄ + ε) / (√((r_x − n_x)² + (r_y − n_y)²) + ε),
  the node's gain over its distance from the robot, both pushed off zero by the same ε (the f32 nearest 1e-6).
  Everything here is one entry of the result read as a function of six entries of the node table: no sum, no
  re-association, so nothing below depends on which float instance it is read at.
-/
import Idealize.ShloMosaic.PureOps.Ideal
import Idealize.ShloMosaic.Lib.ValueIdx

noncomputable section

namespace Cert.Affinity

open Idealize.ShloMosaic Idealize.ShloMosaic.ValueIdx

variable {F : FTy → Type} [FloatOps F]

/-- ε, the f32 nearest to 1e-6: the one literal of either program. -/
def eps : F .f32 := FloatOps.ofBits .f32 0x358637BD#32

/-- One entry: gain over distance, for a node (x0, x1, ·, x2 … x4) and a robot at (rx, ry). -/
def aff (x0 x1 x2 x4 rx ry : F .f32) : F .f32 :=
  FloatOps.divf (FloatOps.addf (FloatOps.addf x2 x4) eps)
    (FloatOps.addf (FloatOps.sqrt (FloatOps.addf (FloatOps.mulf (FloatOps.subf rx x0) (FloatOps.subf rx x0))
      (FloatOps.mulf (FloatOps.subf ry x1) (FloatOps.subf ry x1)))) eps)

/-- One block of the result: 28672 consecutive nodes (a block of the table, X1) against the two robots (X0): entry
    (r, q) is node q of the block against robot r. Entry (r, q) reads row q of X1 and row r of X0 and nothing else. -/
def outBlk (X1 : (⟨2, ![28672, 5]⟩ : Shape).Idx → F .f32) (X0 : (⟨2, ![2, 2]⟩ : Shape).Idx → F .f32) :
    (⟨2, ![2, 28672]⟩ : Shape).Idx → F .f32 :=
  fun j => aff (X1 (ix2 (j 1) (0 : Fin 5))) (X1 (ix2 (j 1) (1 : Fin 5))) (X1 (ix2 (j 1) (2 : Fin 5))) (X1 (ix2 (j 1) (4 : Fin 5)))
    (X0 (ix2 (j 0) (0 : Fin 2))) (X0 (ix2 (j 0) (1 : Fin 2)))

/-- The robots' row r of the node table (r < 2). -/
abbrev robotRow (r : Fin 2) : Fin 8000002 := ⟨r.val, by have := r.isLt; omega⟩

/-- Every node against every robot, the robots' own two columns included: entry (r, n) of a 2 × 8000002 array. -/
def affAll (A : (⟨2, ![8000002, 5]⟩ : Shape).Idx → F .f32) : (⟨2, ![2, 8000002]⟩ : Shape).Idx → F .f32 :=
  fun i => aff (A (ix2 (i 1) (0 : Fin 5))) (A (ix2 (i 1) (1 : Fin 5))) (A (ix2 (i 1) (2 : Fin 5))) (A (ix2 (i 1) (4 : Fin 5)))
    (A (ix2 (robotRow (i 0)) (0 : Fin 5))) (A (ix2 (robotRow (i 0)) (1 : Fin 5)))

/-- Node f + 2 (the f-th frontier: the nodes after the two robots). -/
abbrev frontierRow (f : Fin 8000000) : Fin 8000002 := ⟨f.val + 2, by have := f.isLt; omega⟩

/-- The result: every frontier against every robot, entry (r, f) of a 2 × 8000000 array. -/
def affRes (A : (⟨2, ![8000002, 5]⟩ : Shape).Idx → F .f32) : (⟨2, ![2, 8000000]⟩ : Shape).Idx → F .f32 :=
  fun i => aff (A (ix2 (frontierRow (i 1)) (0 : Fin 5))) (A (ix2 (frontierRow (i 1)) (1 : Fin 5)))
    (A (ix2 (frontierRow (i 1)) (2 : Fin 5))) (A (ix2 (frontierRow (i 1)) (4 : Fin 5)))
    (A (ix2 (robotRow (i 0)) (0 : Fin 5))) (A (ix2 (robotRow (i 0)) (1 : Fin 5)))

/-- The result is the all-nodes array with its first two columns dropped. -/
theorem affRes_eq (A : (⟨2, ![8000002, 5]⟩ : Shape).Idx → F .f32) (i : (⟨2, ![2, 8000000]⟩ : Shape).Idx) :
    affRes A i = affAll A (ix2 (i 0) (frontierRow (i 1))) := rfl

end Cert.Affinity

end
-- ==== Proof.Data.lean ====
/-
  What the three staging buffers hold after the body at each grid point, for any float instance.

  Point t handles nodes 28672·t … 28672·t + 28671. The last point's block runs past the table's end (8000002 =
  279·28672 + 514): its fetch lands the 514 rows that exist and leaves the rest of the buffer at words nothing
  names. So the node buffer is described as "the block's rows inside the table, and a fixed filler word past them";
  only the rows inside the table are ever asserted. The robots' buffer holds the 2 × 2 corner of the table. The
  result's buffer holds, at column q, node q of the block against each robot — a function of row q of the node buffer
  alone, so the columns that are written back (those of rows inside the table) never see the filler.
-/
import proofs.«120496_j77670188580918_1_alg».proof.Proof.Gen.KernelIdeal.Frame
import proofs.«120496_j77670188580918_1_alg».proof.Proof.Spec

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)

variable {F : FTy → Type} [FloatOps F]

variable (m : (ℓ : Loc nD τ sig) → Buf (Elt F) ℓ)

/-- The filler past the table's end: the zero word. Nothing reads it. -/
def filler : S28672x5.Idx → Elt F .f32 := fun _ => FloatOps.ofBits .f32 0#32

/-- The robots' 2 × 2 block (the same at every point). -/
def robots (c : Dev nD) (t : Fin cfg0.N) : S2x2.Idx → Elt F .f32 := iblk m c 0 t

/-- The node block of point t: its rows inside the table, the filler past them. -/
def nodes (c : Dev nD) (t : Fin cfg0.N) : S28672x5.Idx → Elt F .f32 :=
  win0_1.fill (grid0.coords t) filler (iblk m c 1 t)

/-- The result block of point t: each node of the block against each robot. -/
def result (c : Dev nD) (t : Fin cfg0.N) : S2x28672.Idx → Elt F .f32 :=
  Cert.Affinity.outBlk (nodes m c t) (robots m c t)

/-- The proof data of the one pipeline on core c: the arrays as the region finds them; after the body the three
    buffers at robots, nodes, result; the class's invariant; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => robots m c t
    | ⟨1, _⟩ => nodes m c t
    | ⟨2, _⟩ => result m c t
  Φ _ := Pipeline.ΦA spec0 c
  q _ := fullShare
  owed _ := 0

theorem after_0 (c : Dev nD) (t : Fin cfg0.N) : (dats m 0 c).after 0 t = robots m c t := rfl
theorem after_1 (c : Dev nD) (t : Fin cfg0.N) : (dats m 0 c).after 1 t = nodes m c t := rfl
theorem after_2 (c : Dev nD) (t : Fin cfg0.N) : (dats m 0 c).after 2 t = result m c t := rfl

end Cert.KernelIdeal.Hand

end
-- ==== Proof.PayAt.lean ====
/-
  The two values the kernel body stores into its 2 × 28672 output block, read at one index.

  The body transposes the loaded node block X1 (28672 × 5) to 5 × 28672, takes rows 0, 1, 2 and 4 of it as
  rank-1 vectors, takes the four entries of the robot block X0 (2 × 2) as scalars, and for each robot r computes
      (x₂ + x₄ + ε) / (√((r_x − x₀)² + (r_y − x₁)²) + ε)
  pointwise over the 28672 nodes, then views the rank-1 result as a 1 × 28672 row. Every step is a re-indexing or a
  pointwise operation, so at node q and robot r the stored value is the affinity of row q of X1 to row r of X0:
  entry (r, q) of the specification's block. Nothing here depends on the float instance.
-/
import proofs.«120496_j77670188580918_1_alg».proof.Proof.Gen.KernelIdeal.Skeleton
import proofs.«120496_j77670188580918_1_alg».proof.Proof.Spec
import Idealize.ShloMosaic.Lib.Pipeline.Value
import Idealize.ShloMosaic.Lib.ValueIdx

noncomputable section

namespace Cert.KernelIdeal.PayAt

open Cert.KernelIdeal Cert.KernelIdeal.Gen Idealize.ShloMosaic Idealize.ShloMosaic.ValueIdx

variable {F : FTy → Type} [FloatOps F]

/-! ## The layout steps at an index -/

/-- The transposed block at (d, q) is the block at (q, d). -/
theorem transposed_at (X1 : Vec F S28672x5 .f32) (d : Fin 5) (q : Fin 28672) :
    k0_pay2 X1 (ix2 d q) = X1 (ix2 q d) :=
  transpose_apply _ _ _ _ _ (fun b => match b with | ⟨0, _⟩ => rfl | ⟨1, _⟩ => rfl)

/-- Row o of the transposed block, viewed as a rank-1 vector, at q: the block at (q, o). -/
theorem row_at (X1 : Vec F S28672x5 .f32) (o : Nat) (ho : o < 5) (h : S5x28672.Slices ![o, 0] S1x28672)
    (q : Fin 28672) :
    shapeCast S28672 (extractStridedSlice S1x28672 ![o, 0] (k0_pay2 X1) h) shapeCasts_S1x28672_S28672 (ix1 q)
      = X1 (ix2 q (⟨o, ho⟩ : Fin 5)) := by
  -- position q of the rank-1 vector is position (0, q) of the 1 × 28672 row
  refine (shapeCast_apply _ _ (ix1 q) (ix2 (0 : Fin 1) q) ?_).trans ?_
  · rw [Shape.rowMajor_val_two, Shape.rowMajor_val_one]
    show 0 * 28672 + q.val = q.val
    omega
  -- the row taken at offset (o, 0): (0, q) of it is (o, q) of the transposed block
  refine (extractStridedSlice_apply _ _ _ _ (ix2 (⟨o, ho⟩ : Fin 5) q) (fun a => match a with
    | ⟨0, _⟩ => by show o = o + 0; omega
    | ⟨1, _⟩ => by show q.val = 0 + q.val; omega)).trans ?_
  exact transposed_at X1 ⟨o, ho⟩ q

/-- A rank-1 vector viewed as a 1 × 28672 row, at (0, q): the vector at q. -/
theorem cast_at (v : FVec F S28672 .f32) (q : Fin 28672) :
    shapeCast S1x28672 v shapeCasts_S28672_S1x28672 (ix2 (0 : Fin 1) q) = v (ix1 q) := by
  refine shapeCast_apply _ _ _ _ ?_
  rw [Shape.rowMajor_val_one, Shape.rowMajor_val_two]
  show q.val = 0 * 28672 + q.val
  omega

/-- Entry (r, d) of the robot block, taken as a 1 × 1 slice and read as a scalar. -/
theorem robot_at (X0 : Vec F S2x2 .f32) (r d : Nat) (hr : r < 2) (hd : d < 2) (h : S2x2.Slices ![r, d] S1x1) :
    extractAt ![0, 0] (extractStridedSlice S1x1 ![r, d] (k0_pay6 X0) h) inpos_S1x1_p0_0
      = X0 (ix2 (⟨r, hr⟩ : Fin 2) (⟨d, hd⟩ : Fin 2)) := by
  refine (extractStridedSlice_apply _ _ _ _ (ix2 (⟨r, hr⟩ : Fin 2) (⟨d, hd⟩ : Fin 2)) (fun a => match a with
    | ⟨0, _⟩ => by show r = r + 0; omega
    | ⟨1, _⟩ => by show d = d + 0; omega)).trans ?_
  exact congrFun (shapeCast_self X0 shapeCasts_S2x2_S2x2) _

/-! ## The node's four numbers at an index -/

/-- x₀ of node q. -/
theorem pay3_at (X1 : Vec F S28672x5 .f32) (q : Fin 28672) : k0_pay3 X1 (ix1 q) = X1 (ix2 q (0 : Fin 5)) :=
  row_at X1 0 (by omega) _ q

/-- x₁ of node q. -/
theorem pay4_at (X1 : Vec F S28672x5 .f32) (q : Fin 28672) : k0_pay4 X1 (ix1 q) = X1 (ix2 q (1 : Fin 5)) :=
  row_at X1 1 (by omega) _ q

/-- The numerator x₂ + x₄ + ε of node q. -/
theorem pay5_at (X1 : Vec F S28672x5 .f32) (q : Fin 28672) :
    k0_pay5 X1 (ix1 q)
      = FloatOps.addf (FloatOps.addf (X1 (ix2 q (2 : Fin 5))) (X1 (ix2 q (4 : Fin 5)))) Cert.Affinity.eps :=
  congrArg₂ FloatOps.addf (congrArg₂ FloatOps.addf (row_at X1 2 (by omega) _ q) (row_at X1 4 (by omega) _ q)) rfl

/-! ## The arithmetic for one robot, and the two stored rows -/

/-- The body's pointwise arithmetic for a robot at (rx, ry), at node q: the affinity of row q of the block. -/
theorem arith_at (X1 : Vec F S28672x5 .f32) (rx ry : F .f32) (q : Fin 28672) :
    divf (k0_pay5 X1)
        (addf (sqrt (addf
            (mulf (subf (broadcast S28672 rx) (k0_pay3 X1)) (subf (broadcast S28672 rx) (k0_pay3 X1)))
            (mulf (subf (broadcast S28672 ry) (k0_pay4 X1)) (subf (broadcast S28672 ry) (k0_pay4 X1)))))
          (broadcast S28672 (Scalar.ofBits .f32 0x358637BD#32))) (ix1 q)
      = Cert.Affinity.aff (X1 (ix2 q (0 : Fin 5))) (X1 (ix2 q (1 : Fin 5))) (X1 (ix2 q (2 : Fin 5)))
          (X1 (ix2 q (4 : Fin 5))) rx ry := by
  show FloatOps.divf (k0_pay5 X1 (ix1 q))
      (FloatOps.addf (FloatOps.sqrt (FloatOps.addf
          (FloatOps.mulf (FloatOps.subf rx (k0_pay3 X1 (ix1 q))) (FloatOps.subf rx (k0_pay3 X1 (ix1 q))))
          (FloatOps.mulf (FloatOps.subf ry (k0_pay4 X1 (ix1 q))) (FloatOps.subf ry (k0_pay4 X1 (ix1 q))))))
        Cert.Affinity.eps) = _
  rw [pay5_at, pay3_at, pay4_at]
  rfl

/-- Row 0 of the stored block at q: node q against robot 0. -/
theorem pay_row0 (X1 : Vec F S28672x5 .f32) (X0 : Vec F S2x2 .f32) (q : Fin 28672) :
    k0_pay7 X1 X0 (ix2 (0 : Fin 1) q) = Cert.Affinity.outBlk X1 X0 (ix2 (0 : Fin 2) q) := by
  refine (cast_at _ q).trans ((arith_at X1 _ _ q).trans ?_)
  exact congrArg₂ (Cert.Affinity.aff _ _ _ _) (robot_at X0 0 0 (by omega) (by omega) _)
    (robot_at X0 0 1 (by omega) (by omega) _)

/-- Row 1 of the stored block at q: node q against robot 1. -/
theorem pay_row1 (X1 : Vec F S28672x5 .f32) (X0 : Vec F S2x2 .f32) (q : Fin 28672) :
    k0_pay1 (k0_pay8 X1 X0) (ix2 (0 : Fin 1) q) = Cert.Affinity.outBlk X1 X0 (ix2 (1 : Fin 2) q) := by
  refine (cast_at _ q).trans ((arith_at X1 _ _ q).trans ?_)
  exact congrArg₂ (Cert.Affinity.aff _ _ _ _) (robot_at X0 1 0 (by omega) (by omega) _)
    (robot_at X0 1 1 (by omega) (by omega) _)

end Cert.KernelIdeal.PayAt

end
-- ==== Proof.Body.lean ====
/-
  The frame of the kernel's one region, for any float instance: the body's triple, the body obligation at every grid
  point, and the run.

  The body reads its two input buffers whole, stores row 0 and then row 1 of its 2 × 28672 output buffer, and touches
  nothing else. Entry (r, q) of what it stores is node q of the node buffer against robot r: a function of row q of the
  node buffer and row r of the robots' buffer. At the grid's last point the node buffer's rows past the table's end hold
  words nothing names; the columns of the output computed from them are exactly the columns past the result's end, which
  the write-back there does not move. So on the part of each buffer its transfers move — all the obligation of a window
  cut at its array's end states — the buffers hold the blocks the proof data names, whatever those words are.
-/
import proofs.«120496_j77670188580918_1_alg».proof.Proof.Data
import proofs.«120496_j77670188580918_1_alg».proof.Proof.PayAt
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's accesses -/

/-- The robots' buffer, whole. -/
abbrev rRobots : Rect S2x2 := Rect.unit (s := S2x2) ![0, 0] S2x2.size inb_S2x2_S2x2_0_0
/-- The node buffer, whole. -/
abbrev rNodes : Rect S28672x5 := Rect.unit (s := S28672x5) ![0, 0] S28672x5.size inb_S28672x5_S28672x5_0_0
/-- Row 0 and row 1 of the output buffer. -/
abbrev rRow0 : Rect S2x28672 := Rect.unit (s := S2x28672) ![0, 0] S1x28672.size inb_S2x28672_S1x28672_0_0
abbrev rRow1 : Rect S2x28672 := Rect.unit (s := S2x28672) ![1, 0] S1x28672.size inb_S2x28672_S1x28672_1_0

/-- The output buffer after the body, from what the two input buffers hold: its two row stores, the later first. -/
def stored (x0 : Vec F S2x2 .f32) (x1 : Vec F S28672x5 .f32) : Vec F S2x28672 .f32 :=
  View.canon [⟨rRow1, k0_pay1 (k0_pay8 (View.ld x1 rNodes) (View.ld x0 rRobots))⟩,
    ⟨rRow0, k0_pay7 (View.ld x1 rNodes) (View.ld x0 rRobots)⟩]

/-- The two rows tile the buffer. -/
theorem stored_cover (p1 p0 : Vec F S1x28672 .f32) (y : S2x28672.Idx) :
    ∃ pc ∈ ([⟨rRow1, p1⟩, ⟨rRow0, p0⟩] : List (View.Piece (Elt F) S2x28672 .f32)), y ∈ pc.1.set :=
  View.cover_of_tiled [⟨rRow1, p1⟩, ⟨rRow0, p0⟩] S1x28672.size (by rfl) y

set_option maxHeartbeats 1000000 in
/-- The body on whole staging memrefs, the inputs' at contents x0 (robots) and x1 (nodes) and the output's at anything,
    runs to the continuation holding the inputs' as they were and the output's at its two stored rows. -/
theorem sound_kernel (c : Dev nD) (E : Set ℕ) (i : grid0.Coords) (arg1 : Memref sig .tc .vmem S2x2 .f32) (harg1 : arg1.IsWhole)
    (arg2 : Memref sig .tc .vmem S28672x5 .f32) (harg2 : arg2.IsWhole) (arg3 : Memref sig .tc .vmem S2x28672 .f32) (harg3 : arg3.IsWhole)
    (x0 : Vec F S2x2 .f32) (x1 : Vec F S28672x5 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (stored x0 x1)) -∗ K ⟨⟩))
      ⊢ wp frame (wpE (defs₀ (F := F)) Variants.none c none) E (cc0__affinity_kernel i arg1 harg1 arg2 harg2 arg3 harg3) K := by
  simp only [cc0__affinity_kernel_eq_skeleton]; unfold cc0__affinity_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored_cover _ _)

/-! ## What was stored is the block of the function -/

/-- The two stored rows are rows 0 and 1 of `outBlk`: each payload read at its index, the rows tiling the buffer. -/
theorem stored_eq (x0 : Vec F S2x2 .f32) (x1 : Vec F S28672x5 .f32) : stored x0 x1 = Cert.Affinity.outBlk x1 x0 := by
  have hz2 : (![0, 0] : Fin 2 → Nat) = fun _ => 0 := funext fun a => by fin_cases a <;> rfl
  funext y
  unfold stored
  rw [View.ld_unit_zero (S := S28672x5) hz2, View.ld_unit_zero (S := S2x2) hz2]
  refine View.canon_apply_of_pieces (Cert.Affinity.outBlk x1 x0) _ ?_ y (stored_cover _ _ y)
  intro p hp
  simp only [List.mem_cons, List.mem_nil_iff, or_false] at hp
  have hrow : ∀ x : S1x28672.Idx, ∃ q : Fin 28672, x = ix2 (0 : Fin 1) q := fun x => ⟨x 1, by
    funext a
    match a with
    | ⟨0, _⟩ => exact Fin.ext (by have h : (x 0).val < 1 := (x 0).isLt; show (x 0).val = 0; omega)
    | ⟨1, _⟩ => rfl⟩
  rcases hp with rfl | rfl
  · intro (x : S1x28672.Idx)
    obtain ⟨q, rfl⟩ := hrow x
    refine (PayAt.pay_row1 x1 x0 q).trans (congrArg _ ?_)
    funext a; apply Fin.ext
    match a with
    | ⟨0, _⟩ => rfl
    | ⟨1, _⟩ => show q.val = 0 + 1 * q.val; omega
  · intro (x : S1x28672.Idx)
    obtain ⟨q, rfl⟩ := hrow x
    refine (PayAt.pay_row0 x1 x0 q).trans (congrArg _ ?_)
    funext a; apply Fin.ext
    match a with
    | ⟨0, _⟩ => rfl
    | ⟨1, _⟩ => show q.val = 0 + 1 * q.val; omega

/-! ## The two cut windows cut alike -/

/-- The node window's rows moved at a point are as many as the result window's columns moved there (both are the
    block of 28672 cut at 8000002), and all five of a row's entries are moved. -/
theorem xsize_rows (t : Fin cfg0.N) : win0_1.xsize (grid0.coords t) 0 = win0_2.xsize (grid0.coords t) 1 :=
  (by decide +kernel : ∀ t : Fin grid0.N, win0_1.xsize (grid0.coords t) 0 = win0_2.xsize (grid0.coords t) 1) t
theorem xsize_cols (t : Fin cfg0.N) : win0_1.xsize (grid0.coords t) 1 = 5 :=
  (by decide +kernel : ∀ t : Fin grid0.N, win0_1.xsize (grid0.coords t) 1 = 5) t

/-- A row of the node buffer that a kept column reads is a fetched row: it holds the block's row whatever filled the
    buffer past the table's end. -/
theorem fill_row (t : Fin cfg0.N) (d d' : S28672x5.Idx → Elt F .f32) (g : (win0_1.xblock (grid0.coords t)).Idx → Elt F .f32)
    (q : Fin 28672) (hq : q.val < win0_2.xsize (grid0.coords t) 1) (k : Fin 5) :
    win0_1.fill (grid0.coords t) d g (ix2 q k) = win0_1.fill (grid0.coords t) d' g (ix2 q k) := by
  have hm : win0_1.moved (grid0.coords t) (ix2 q k) = true := (win0_1.moved_iff _ _).mpr fun a => by
    match a with
    | ⟨0, _⟩ => show q.val < win0_1.xsize (grid0.coords t) 0; rw [xsize_rows t]; exact hq
    | ⟨1, _⟩ => show k.val < win0_1.xsize (grid0.coords t) 1; rw [xsize_cols t]; exact k.isLt
  unfold Window.fill; rw [dif_pos hm, dif_pos hm]

/-- So the kept columns of the result block are the same whatever filled the node buffer. -/
theorem cut_outBlk (t : Fin cfg0.N) (d d' : S28672x5.Idx → Elt F .f32) (g : (win0_1.xblock (grid0.coords t)).Idx → Elt F .f32)
    (x0 : Vec F S2x2 .f32) :
    win0_2.cut (grid0.coords t) (Cert.Affinity.outBlk (win0_1.fill (grid0.coords t) d g) x0)
      = win0_2.cut (grid0.coords t) (Cert.Affinity.outBlk (win0_1.fill (grid0.coords t) d' g) x0) := by
  funext y
  have hq : ((win0_2.xinj (grid0.coords t) y) 1).val < win0_2.xsize (grid0.coords t) 1 := (y 1).isLt
  show Cert.Affinity.outBlk _ x0 (win0_2.xinj (grid0.coords t) y) = Cert.Affinity.outBlk _ x0 (win0_2.xinj (grid0.coords t) y)
  unfold Cert.Affinity.outBlk
  rw [fill_row t d d' g _ hq 0, fill_row t d d' g _ hq 1, fill_row t d d' g _ hq 2, fill_row t d d' g _ hq 4]

/-! ## What the body finds -/

theorem A_eq (c : Dev nD) (w : Fin cfg0.W) : (dats m 0 c).A w = V m c (Pipeline.arrRef spec0 w) := by
  dsimp only [dats]

/-- The robots' buffer holds the robots' block at every point, fetched there or not. -/
theorem before_0 (c : Dev nD) (t : Fin cfg0.N) (d) : (dats m 0 c).before 0 t d = robots m c t :=
  before0_0_of m (dats m 0 c) (A_eq m c 0) (fun t => after_0 m c t) t d

/-- The node buffer, fetched at every point, holds the block's rows inside the table and anything past them. -/
theorem before_1 (c : Dev nD) (t : Fin cfg0.N) (d) :
    (dats m 0 c).before 1 t d = win0_1.fill (grid0.coords t) d (iblk m c 1 t) := by
  rw [Dat.before_fetched _ 1 t (fetch0_1 t)]
  unfold Dat.fetched Dat.blockOf iblk
  rw [A_eq]

/-- The result's buffer, written back at every point, is found holding anything. -/
theorem before_2 (c : Dev nD) (t : Fin cfg0.N) (d) : (dats m 0 c).before 2 t d = d :=
  (dats m 0 c).before_out_reset 2 rfl t (by
    by_cases h : t.val = 0
    · exact .inl h
    · exact .inr ⟨h, flush0_2 _⟩) d

/-! ## The body obligation -/

/-- At every point: the body finds the robots' block, the node block filled out with some d₁ and anything in the
    result's buffer; it leaves the first two as they were and the result's at `outBlk` of them — which on the moved
    parts are the proof data's `nodes` and `result`, all the two cut windows' obligations ask. -/
theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1, before_2 m c t d2]
  iapply (sound_kernel (F := F) c Set.univ (grid0.coords t) _ _ _ _ _ _ (robots m c t) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · rw [after_0]; iexact H0
  isplitl [H1]
  · iexists d1
    rw [after_1]; unfold nodes
    rw [Window.cut_fill]; iexact H1
  · iexists (Cert.Affinity.outBlk (win0_1.fill (grid0.coords t) d1 (iblk m c 1 t)) (robots m c t))
    rw [after_2]; unfold result nodes
    rw [cut_outBlk t filler d1 (iblk m c 1 t) (robots m c t), Window.fill_cut, ← stored_eq]
    iexact H2

/-! ## The run and the frame -/

set_option backward.isDefEq.respectTransparency.types false in
/-- For any values, from any memory with zero counters: every weakly fair execution of @main terminates, every array
    of the pipeline ends at what the library computes from the proof data, and every other unscoped buffer at what
    the host lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the run terminates, faults nowhere, and leaves the three arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.DataW.lean ====
/-
  What the three staging buffers hold after the body at each grid point, for any float instance.

  Point t handles nodes 28672·t … 28672·t + 28671. The last point's block runs past the table's end (8000002 =
  279·28672 + 514): its fetch lands the 514 rows that exist and leaves the rest of the buffer at words nothing
  names. So the node buffer is described as "the block's rows inside the table, and a fixed filler word past them";
  only the rows inside the table are ever asserted. The robots' buffer holds the 2 × 2 corner of the table. The
  result's buffer holds, at column q, node q of the block against each robot — a function of row q of the node buffer
  alone, so the columns that are written back (those of rows inside the table) never see the filler.
-/
import proofs.«120496_j77670188580918_1_alg».proof.Proof.Gen.Kernel.Frame
import proofs.«120496_j77670188580918_1_alg».proof.Proof.Spec

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)

variable {F : FTy → Type} [FloatOps F]

variable (m : (ℓ : Loc nD τ sig) → Buf (Elt F) ℓ)

/-- The filler past the table's end: the zero word. Nothing reads it. -/
def filler : S28672x5.Idx → Elt F .f32 := fun _ => FloatOps.ofBits .f32 0#32

/-- The robots' 2 × 2 block (the same at every point). -/
def robots (c : Dev nD) (t : Fin cfg0.N) : S2x2.Idx → Elt F .f32 := iblk m c 0 t

/-- The node block of point t: its rows inside the table, the filler past them. -/
def nodes (c : Dev nD) (t : Fin cfg0.N) : S28672x5.Idx → Elt F .f32 :=
  win0_1.fill (grid0.coords t) filler (iblk m c 1 t)

/-- The result block of point t: each node of the block against each robot. -/
def result (c : Dev nD) (t : Fin cfg0.N) : S2x28672.Idx → Elt F .f32 :=
  Cert.Affinity.outBlk (nodes m c t) (robots m c t)

/-- The proof data of the one pipeline on core c: the arrays as the region finds them; after the body the three
    buffers at robots, nodes, result; the class's invariant; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => robots m c t
    | ⟨1, _⟩ => nodes m c t
    | ⟨2, _⟩ => result m c t
  Φ _ := Pipeline.ΦA spec0 c
  q _ := fullShare
  owed _ := 0

theorem after_0 (c : Dev nD) (t : Fin cfg0.N) : (dats m 0 c).after 0 t = robots m c t := rfl
theorem after_1 (c : Dev nD) (t : Fin cfg0.N) : (dats m 0 c).after 1 t = nodes m c t := rfl
theorem after_2 (c : Dev nD) (t : Fin cfg0.N) : (dats m 0 c).after 2 t = result m c t := rfl

end Cert.Kernel.Hand

end
-- ==== Proof.PayAtW.lean ====
/-
  The two values the kernel body stores into its 2 × 28672 output block, read at one index.

  The body transposes the loaded node block X1 (28672 × 5) to 5 × 28672, takes rows 0, 1, 2 and 4 of it as
  rank-1 vectors, takes the four entries of the robot block X0 (2 × 2) as scalars, and for each robot r computes
      (x₂ + x₄ + ε) / (√((r_x − x₀)² + (r_y − x₁)²) + ε)
  pointwise over the 28672 nodes, then views the rank-1 result as a 1 × 28672 row. Every step is a re-indexing or a
  pointwise operation, so at node q and robot r the stored value is the affinity of row q of X1 to row r of X0:
  entry (r, q) of the specification's block. Nothing here depends on the float instance.
-/
import proofs.«120496_j77670188580918_1_alg».proof.Proof.Gen.Kernel.Skeleton
import proofs.«120496_j77670188580918_1_alg».proof.Proof.Spec
import Idealize.ShloMosaic.Lib.Pipeline.Value
import Idealize.ShloMosaic.Lib.ValueIdx

noncomputable section

namespace Cert.Kernel.PayAt

open Cert.Kernel Cert.Kernel.Gen Idealize.ShloMosaic Idealize.ShloMosaic.ValueIdx

variable {F : FTy → Type} [FloatOps F]

/-! ## The layout steps at an index -/

/-- The transposed block at (d, q) is the block at (q, d). -/
theorem transposed_at (X1 : Vec F S28672x5 .f32) (d : Fin 5) (q : Fin 28672) :
    k0_pay2 X1 (ix2 d q) = X1 (ix2 q d) :=
  transpose_apply _ _ _ _ _ (fun b => match b with | ⟨0, _⟩ => rfl | ⟨1, _⟩ => rfl)

/-- Row o of the transposed block, viewed as a rank-1 vector, at q: the block at (q, o). -/
theorem row_at (X1 : Vec F S28672x5 .f32) (o : Nat) (ho : o < 5) (h : S5x28672.Slices ![o, 0] S1x28672)
    (q : Fin 28672) :
    shapeCast S28672 (extractStridedSlice S1x28672 ![o, 0] (k0_pay2 X1) h) shapeCasts_S1x28672_S28672 (ix1 q)
      = X1 (ix2 q (⟨o, ho⟩ : Fin 5)) := by
  -- position q of the rank-1 vector is position (0, q) of the 1 × 28672 row
  refine (shapeCast_apply _ _ (ix1 q) (ix2 (0 : Fin 1) q) ?_).trans ?_
  · rw [Shape.rowMajor_val_two, Shape.rowMajor_val_one]
    show 0 * 28672 + q.val = q.val
    omega
  -- the row taken at offset (o, 0): (0, q) of it is (o, q) of the transposed block
  refine (extractStridedSlice_apply _ _ _ _ (ix2 (⟨o, ho⟩ : Fin 5) q) (fun a => match a with
    | ⟨0, _⟩ => by show o = o + 0; omega
    | ⟨1, _⟩ => by show q.val = 0 + q.val; omega)).trans ?_
  exact transposed_at X1 ⟨o, ho⟩ q

/-- A rank-1 vector viewed as a 1 × 28672 row, at (0, q): the vector at q. -/
theorem cast_at (v : FVec F S28672 .f32) (q : Fin 28672) :
    shapeCast S1x28672 v shapeCasts_S28672_S1x28672 (ix2 (0 : Fin 1) q) = v (ix1 q) := by
  refine shapeCast_apply _ _ _ _ ?_
  rw [Shape.rowMajor_val_one, Shape.rowMajor_val_two]
  show q.val = 0 * 28672 + q.val
  omega

/-- Entry (r, d) of the robot block, taken as a 1 × 1 slice and read as a scalar. -/
theorem robot_at (X0 : Vec F S2x2 .f32) (r d : Nat) (hr : r < 2) (hd : d < 2) (h : S2x2.Slices ![r, d] S1x1) :
    extractAt ![0, 0] (extractStridedSlice S1x1 ![r, d] (k0_pay6 X0) h) inpos_S1x1_p0_0
      = X0 (ix2 (⟨r, hr⟩ : Fin 2) (⟨d, hd⟩ : Fin 2)) := by
  refine (extractStridedSlice_apply _ _ _ _ (ix2 (⟨r, hr⟩ : Fin 2) (⟨d, hd⟩ : Fin 2)) (fun a => match a with
    | ⟨0, _⟩ => by show r = r + 0; omega
    | ⟨1, _⟩ => by show d = d + 0; omega)).trans ?_
  exact congrFun (shapeCast_self X0 shapeCasts_S2x2_S2x2) _

/-! ## The node's four numbers at an index -/

/-- x₀ of node q. -/
theorem pay3_at (X1 : Vec F S28672x5 .f32) (q : Fin 28672) : k0_pay3 X1 (ix1 q) = X1 (ix2 q (0 : Fin 5)) :=
  row_at X1 0 (by omega) _ q

/-- x₁ of node q. -/
theorem pay4_at (X1 : Vec F S28672x5 .f32) (q : Fin 28672) : k0_pay4 X1 (ix1 q) = X1 (ix2 q (1 : Fin 5)) :=
  row_at X1 1 (by omega) _ q

/-- The numerator x₂ + x₄ + ε of node q. -/
theorem pay5_at (X1 : Vec F S28672x5 .f32) (q : Fin 28672) :
    k0_pay5 X1 (ix1 q)
      = FloatOps.addf (FloatOps.addf (X1 (ix2 q (2 : Fin 5))) (X1 (ix2 q (4 : Fin 5)))) Cert.Affinity.eps :=
  congrArg₂ FloatOps.addf (congrArg₂ FloatOps.addf (row_at X1 2 (by omega) _ q) (row_at X1 4 (by omega) _ q)) rfl

/-! ## The arithmetic for one robot, and the two stored rows -/

/-- The body's pointwise arithmetic for a robot at (rx, ry), at node q: the affinity of row q of the block. -/
theorem arith_at (X1 : Vec F S28672x5 .f32) (rx ry : F .f32) (q : Fin 28672) :
    divf (k0_pay5 X1)
        (addf (sqrt (addf
            (mulf (subf (broadcast S28672 rx) (k0_pay3 X1)) (subf (broadcast S28672 rx) (k0_pay3 X1)))
            (mulf (subf (broadcast S28672 ry) (k0_pay4 X1)) (subf (broadcast S28672 ry) (k0_pay4 X1)))))
          (broadcast S28672 (Scalar.ofBits .f32 0x358637BD#32))) (ix1 q)
      = Cert.Affinity.aff (X1 (ix2 q (0 : Fin 5))) (X1 (ix2 q (1 : Fin 5))) (X1 (ix2 q (2 : Fin 5)))
          (X1 (ix2 q (4 : Fin 5))) rx ry := by
  show FloatOps.divf (k0_pay5 X1 (ix1 q))
      (FloatOps.addf (FloatOps.sqrt (FloatOps.addf
          (FloatOps.mulf (FloatOps.subf rx (k0_pay3 X1 (ix1 q))) (FloatOps.subf rx (k0_pay3 X1 (ix1 q))))
          (FloatOps.mulf (FloatOps.subf ry (k0_pay4 X1 (ix1 q))) (FloatOps.subf ry (k0_pay4 X1 (ix1 q))))))
        Cert.Affinity.eps) = _
  rw [pay5_at, pay3_at, pay4_at]
  rfl

/-- Row 0 of the stored block at q: node q against robot 0. -/
theorem pay_row0 (X1 : Vec F S28672x5 .f32) (X0 : Vec F S2x2 .f32) (q : Fin 28672) :
    k0_pay7 X1 X0 (ix2 (0 : Fin 1) q) = Cert.Affinity.outBlk X1 X0 (ix2 (0 : Fin 2) q) := by
  refine (cast_at _ q).trans ((arith_at X1 _ _ q).trans ?_)
  exact congrArg₂ (Cert.Affinity.aff _ _ _ _) (robot_at X0 0 0 (by omega) (by omega) _)
    (robot_at X0 0 1 (by omega) (by omega) _)

/-- Row 1 of the stored block at q: node q against robot 1. -/
theorem pay_row1 (X1 : Vec F S28672x5 .f32) (X0 : Vec F S2x2 .f32) (q : Fin 28672) :
    k0_pay1 (k0_pay8 X1 X0) (ix2 (0 : Fin 1) q) = Cert.Affinity.outBlk X1 X0 (ix2 (1 : Fin 2) q) := by
  refine (cast_at _ q).trans ((arith_at X1 _ _ q).trans ?_)
  exact congrArg₂ (Cert.Affinity.aff _ _ _ _) (robot_at X0 1 0 (by omega) (by omega) _)
    (robot_at X0 1 1 (by omega) (by omega) _)

end Cert.Kernel.PayAt

end
-- ==== Proof.BodyW.lean ====
/-
  The frame of the kernel's one region, for any float instance: the body's triple, the body obligation at every grid
  point, and the run.

  The body reads its two input buffers whole, stores row 0 and then row 1 of its 2 × 28672 output buffer, and touches
  nothing else. Entry (r, q) of what it stores is node q of the node buffer against robot r: a function of row q of the
  node buffer and row r of the robots' buffer. At the grid's last point the node buffer's rows past the table's end hold
  words nothing names; the columns of the output computed from them are exactly the columns past the result's end, which
  the write-back there does not move. So on the part of each buffer its transfers move — all the obligation of a window
  cut at its array's end states — the buffers hold the blocks the proof data names, whatever those words are.
-/
import proofs.«120496_j77670188580918_1_alg».proof.Proof.DataW
import proofs.«120496_j77670188580918_1_alg».proof.Proof.PayAtW
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's accesses -/

/-- The robots' buffer, whole. -/
abbrev rRobots : Rect S2x2 := Rect.unit (s := S2x2) ![0, 0] S2x2.size inb_S2x2_S2x2_0_0
/-- The node buffer, whole. -/
abbrev rNodes : Rect S28672x5 := Rect.unit (s := S28672x5) ![0, 0] S28672x5.size inb_S28672x5_S28672x5_0_0
/-- Row 0 and row 1 of the output buffer. -/
abbrev rRow0 : Rect S2x28672 := Rect.unit (s := S2x28672) ![0, 0] S1x28672.size inb_S2x28672_S1x28672_0_0
abbrev rRow1 : Rect S2x28672 := Rect.unit (s := S2x28672) ![1, 0] S1x28672.size inb_S2x28672_S1x28672_1_0

/-- The output buffer after the body, from what the two input buffers hold: its two row stores, the later first. -/
def stored (x0 : Vec F S2x2 .f32) (x1 : Vec F S28672x5 .f32) : Vec F S2x28672 .f32 :=
  View.canon [⟨rRow1, k0_pay1 (k0_pay8 (View.ld x1 rNodes) (View.ld x0 rRobots))⟩,
    ⟨rRow0, k0_pay7 (View.ld x1 rNodes) (View.ld x0 rRobots)⟩]

/-- The two rows tile the buffer. -/
theorem stored_cover (p1 p0 : Vec F S1x28672 .f32) (y : S2x28672.Idx) :
    ∃ pc ∈ ([⟨rRow1, p1⟩, ⟨rRow0, p0⟩] : List (View.Piece (Elt F) S2x28672 .f32)), y ∈ pc.1.set :=
  View.cover_of_tiled [⟨rRow1, p1⟩, ⟨rRow0, p0⟩] S1x28672.size (by rfl) y

set_option maxHeartbeats 1000000 in
/-- The body on whole staging memrefs, the inputs' at contents x0 (robots) and x1 (nodes) and the output's at anything,
    runs to the continuation holding the inputs' as they were and the output's at its two stored rows. -/
theorem sound_kernel (c : Dev nD) (E : Set ℕ) (i : grid0.Coords) (arg1 : Memref sig .tc .vmem S2x2 .f32) (harg1 : arg1.IsWhole)
    (arg2 : Memref sig .tc .vmem S28672x5 .f32) (harg2 : arg2.IsWhole) (arg3 : Memref sig .tc .vmem S2x28672 .f32) (harg3 : arg3.IsWhole)
    (x0 : Vec F S2x2 .f32) (x1 : Vec F S28672x5 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (stored x0 x1)) -∗ K ⟨⟩))
      ⊢ wp frame (wpE (defs₀ (F := F)) Variants.none c none) E (cc0__affinity_kernel i arg1 harg1 arg2 harg2 arg3 harg3) K := by
  simp only [cc0__affinity_kernel_eq_skeleton]; unfold cc0__affinity_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored_cover _ _)

/-! ## What was stored is the block of the function -/

/-- The two stored rows are rows 0 and 1 of `outBlk`: each payload read at its index, the rows tiling the buffer. -/
theorem stored_eq (x0 : Vec F S2x2 .f32) (x1 : Vec F S28672x5 .f32) : stored x0 x1 = Cert.Affinity.outBlk x1 x0 := by
  have hz2 : (![0, 0] : Fin 2 → Nat) = fun _ => 0 := funext fun a => by fin_cases a <;> rfl
  funext y
  unfold stored
  rw [View.ld_unit_zero (S := S28672x5) hz2, View.ld_unit_zero (S := S2x2) hz2]
  refine View.canon_apply_of_pieces (Cert.Affinity.outBlk x1 x0) _ ?_ y (stored_cover _ _ y)
  intro p hp
  simp only [List.mem_cons, List.mem_nil_iff, or_false] at hp
  have hrow : ∀ x : S1x28672.Idx, ∃ q : Fin 28672, x = ix2 (0 : Fin 1) q := fun x => ⟨x 1, by
    funext a
    match a with
    | ⟨0, _⟩ => exact Fin.ext (by have h : (x 0).val < 1 := (x 0).isLt; show (x 0).val = 0; omega)
    | ⟨1, _⟩ => rfl⟩
  rcases hp with rfl | rfl
  · intro (x : S1x28672.Idx)
    obtain ⟨q, rfl⟩ := hrow x
    refine (PayAt.pay_row1 x1 x0 q).trans (congrArg _ ?_)
    funext a; apply Fin.ext
    match a with
    | ⟨0, _⟩ => rfl
    | ⟨1, _⟩ => show q.val = 0 + 1 * q.val; omega
  · intro (x : S1x28672.Idx)
    obtain ⟨q, rfl⟩ := hrow x
    refine (PayAt.pay_row0 x1 x0 q).trans (congrArg _ ?_)
    funext a; apply Fin.ext
    match a with
    | ⟨0, _⟩ => rfl
    | ⟨1, _⟩ => show q.val = 0 + 1 * q.val; omega

/-! ## The two cut windows cut alike -/

/-- The node window's rows moved at a point are as many as the result window's columns moved there (both are the
    block of 28672 cut at 8000002), and all five of a row's entries are moved. -/
theorem xsize_rows (t : Fin cfg0.N) : win0_1.xsize (grid0.coords t) 0 = win0_2.xsize (grid0.coords t) 1 :=
  (by decide +kernel : ∀ t : Fin grid0.N, win0_1.xsize (grid0.coords t) 0 = win0_2.xsize (grid0.coords t) 1) t
theorem xsize_cols (t : Fin cfg0.N) : win0_1.xsize (grid0.coords t) 1 = 5 :=
  (by decide +kernel : ∀ t : Fin grid0.N, win0_1.xsize (grid0.coords t) 1 = 5) t

/-- A row of the node buffer that a kept column reads is a fetched row: it holds the block's row whatever filled the
    buffer past the table's end. -/
theorem fill_row (t : Fin cfg0.N) (d d' : S28672x5.Idx → Elt F .f32) (g : (win0_1.xblock (grid0.coords t)).Idx → Elt F .f32)
    (q : Fin 28672) (hq : q.val < win0_2.xsize (grid0.coords t) 1) (k : Fin 5) :
    win0_1.fill (grid0.coords t) d g (ix2 q k) = win0_1.fill (grid0.coords t) d' g (ix2 q k) := by
  have hm : win0_1.moved (grid0.coords t) (ix2 q k) = true := (win0_1.moved_iff _ _).mpr fun a => by
    match a with
    | ⟨0, _⟩ => show q.val < win0_1.xsize (grid0.coords t) 0; rw [xsize_rows t]; exact hq
    | ⟨1, _⟩ => show k.val < win0_1.xsize (grid0.coords t) 1; rw [xsize_cols t]; exact k.isLt
  unfold Window.fill; rw [dif_pos hm, dif_pos hm]

/-- So the kept columns of the result block are the same whatever filled the node buffer. -/
theorem cut_outBlk (t : Fin cfg0.N) (d d' : S28672x5.Idx → Elt F .f32) (g : (win0_1.xblock (grid0.coords t)).Idx → Elt F .f32)
    (x0 : Vec F S2x2 .f32) :
    win0_2.cut (grid0.coords t) (Cert.Affinity.outBlk (win0_1.fill (grid0.coords t) d g) x0)
      = win0_2.cut (grid0.coords t) (Cert.Affinity.outBlk (win0_1.fill (grid0.coords t) d' g) x0) := by
  funext y
  have hq : ((win0_2.xinj (grid0.coords t) y) 1).val < win0_2.xsize (grid0.coords t) 1 := (y 1).isLt
  show Cert.Affinity.outBlk _ x0 (win0_2.xinj (grid0.coords t) y) = Cert.Affinity.outBlk _ x0 (win0_2.xinj (grid0.coords t) y)
  unfold Cert.Affinity.outBlk
  rw [fill_row t d d' g _ hq 0, fill_row t d d' g _ hq 1, fill_row t d d' g _ hq 2, fill_row t d d' g _ hq 4]

/-! ## What the body finds -/

theorem A_eq (c : Dev nD) (w : Fin cfg0.W) : (dats m 0 c).A w = V m c (Pipeline.arrRef spec0 w) := by
  dsimp only [dats]

/-- The robots' buffer holds the robots' block at every point, fetched there or not. -/
theorem before_0 (c : Dev nD) (t : Fin cfg0.N) (d) : (dats m 0 c).before 0 t d = robots m c t :=
  before0_0_of m (dats m 0 c) (A_eq m c 0) (fun t => after_0 m c t) t d

/-- The node buffer, fetched at every point, holds the block's rows inside the table and anything past them. -/
theorem before_1 (c : Dev nD) (t : Fin cfg0.N) (d) :
    (dats m 0 c).before 1 t d = win0_1.fill (grid0.coords t) d (iblk m c 1 t) := by
  rw [Dat.before_fetched _ 1 t (fetch0_1 t)]
  unfold Dat.fetched Dat.blockOf iblk
  rw [A_eq]

/-- The result's buffer, written back at every point, is found holding anything. -/
theorem before_2 (c : Dev nD) (t : Fin cfg0.N) (d) : (dats m 0 c).before 2 t d = d :=
  (dats m 0 c).before_out_reset 2 rfl t (by
    by_cases h : t.val = 0
    · exact .inl h
    · exact .inr ⟨h, flush0_2 _⟩) d

/-! ## The body obligation -/

/-- At every point: the body finds the robots' block, the node block filled out with some d₁ and anything in the
    result's buffer; it leaves the first two as they were and the result's at `outBlk` of them — which on the moved
    parts are the proof data's `nodes` and `result`, all the two cut windows' obligations ask. -/
theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1, before_2 m c t d2]
  iapply (sound_kernel (F := F) c Set.univ (grid0.coords t) _ _ _ _ _ _ (robots m c t) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · rw [after_0]; iexact H0
  isplitl [H1]
  · iexists d1
    rw [after_1]; unfold nodes
    rw [Window.cut_fill]; iexact H1
  · iexists (Cert.Affinity.outBlk (win0_1.fill (grid0.coords t) d1 (iblk m c 1 t)) (robots m c t))
    rw [after_2]; unfold result nodes
    rw [cut_outBlk t filler d1 (iblk m c 1 t) (robots m c t), Window.fill_cut, ← stored_eq]
    iexact H2

/-! ## The run and the frame -/

set_option backward.isDefEq.respectTransparency.types false in
/-- For any values, from any memory with zero counters: every weakly fair execution of @main terminates, every array
    of the pipeline ends at what the library computes from the proof data, and every other unscoped buffer at what
    the host lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the run terminates, faults nowhere, and leaves the three arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KernelValue.lean ====
/-
  The kernel's result array, read off the proof data, for any float instance.

  Point t of the grid handles nodes 28672·t … 28672·t + 28671, cut at the table's end (8000002 = 279·28672 + 514).
  The robots' block is the 2 × 2 corner of the node table at every point. Column q of the result block written back
  at point t is node 28672·t + q against each robot; only columns of nodes inside the table are written back, and for
  those the node buffer's row q is the table's row 28672·t + q, because the node window and the result window are cut
  alike. The blocks written back cover the 2 × 8000002 array (column n lies in block n / 28672), so after the run the
  array holds every node against every robot, and the slice that follows drops the robots' own two columns.
-/
import proofs.«120496_j77670188580918_1_alg».proof.Proof.Data
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.RA Idealize.SL.BI
open scoped Idealize.SL.BI
open Idealize.SL.BI.BIBase Idealize.SL.Sem
open Idealize.ShloMosaic.Rounds
open Idealize.ShloMosaic.Pipeline (Dat Cfg Window)

variable {F : FTy → Type} [FloatOps F]

variable (m : (ℓ : Loc nD τ sig) → Buf (Elt F) ℓ)

/-- The robots' array as the region finds it: the 2 × 2 corner of the node table. -/
theorem V_v0 (c : Dev nD) :
    V m c (Pipeline.arrRef spec0 0)
      = extractStridedSlice S2x2 ![0, 0] (m ((c : Thread nD τ).loc main_arg0)) Facts₀.slices_S8000002x5_S2x2_0_0 := by
  show StableHlo.after hostOps0 (fun b => m (c, b)) (Proc.devRef .tc main_v0) = _
  after_results

/-- Entry (r, d) of the robots' block, at every point, is coordinate d of the table's row r. -/
theorem robots_eq (c : Dev nD) (t : Fin cfg0.N) (r d : Fin 2) :
    robots m c t (ix2 r d) = m ((c : Thread nD τ).loc main_arg0) (ix2 (Cert.Affinity.robotRow r) ⟨d.val, by omega⟩) := by
  unfold robots iblk
  rw [View.read_apply, V_v0, cast_eq]
  refine extractStridedSlice_apply _ _ _ _ _ fun a => ?_
  match a with
  | ⟨0, _⟩ => show r.val = 0 + (0 * 2 + 1 * r.val); omega
  | ⟨1, _⟩ => show d.val = 0 + (0 * 2 + 1 * d.val); omega

/-- Equal arguments, equal affinities. -/
theorem aff_congr {x0 x1 x2 x4 rx ry x0' x1' x2' x4' rx' ry' : F .f32}
    (h0 : x0 = x0') (h1 : x1 = x1') (h2 : x2 = x2') (h4 : x4 = x4') (hx : rx = rx') (hy : ry = ry') :
    Cert.Affinity.aff x0 x1 x2 x4 rx ry = Cert.Affinity.aff x0' x1' x2' x4' rx' ry' := by
  rw [h0, h1, h2, h4, hx, hy]

/-- Row q of the node buffer, for a column q of the result block that is written back, is the table's row under that
    column: the node window and the result window are cut alike, so the row is one the fetch landed. -/
theorem nodes_row (c : Dev nD) (t : Fin cfg0.N) (y : ((cfg0.win 2).xblock (grid0.coords t)).Idx) (k : Fin 5) :
    nodes m c t (ix2 ((win0_2.xinj (grid0.coords t) y) 1) k)
      = m ((c : Thread nD τ).loc main_arg0) (ix2 ((((cfg0.win 2).blk t).view.emb y) 1) k) := by
  have hmv : win0_1.moved (grid0.coords t) (ix2 ((win0_2.xinj (grid0.coords t) y) 1) k) = true := by
    rw [Window.moved_iff]
    intro a
    match a with
    | ⟨0, _⟩ => exact (y 1).isLt
    | ⟨1, _⟩ => exact k.isLt
  unfold nodes Window.fill
  rw [dif_pos hmv]
  unfold iblk
  rw [View.read_apply, cast_eq]
  refine (congrFun (V_main_arg0 m c) _).trans (congrArg _ ?_)
  funext a
  apply Fin.ext
  match a with
  | ⟨0, _⟩ => rfl
  | ⟨1, _⟩ => show 0 * 5 + 1 * k.val = k.val; omega

/-- Row r of the robots' block is the table's row under row r of the result block. -/
theorem robots_row (c : Dev nD) (t : Fin cfg0.N) (y : ((cfg0.win 2).xblock (grid0.coords t)).Idx) (d : Fin 2) :
    robots m c t (ix2 ((win0_2.xinj (grid0.coords t) y) 0) d)
      = m ((c : Thread nD τ).loc main_arg0)
          (ix2 (Cert.Affinity.robotRow ((((cfg0.win 2).blk t).view.emb y) 0)) ⟨d.val, by omega⟩) := by
  refine (robots_eq m c t _ d).trans (congrArg _ ?_)
  have e : Cert.Affinity.robotRow ((win0_2.xinj (grid0.coords t) y) 0)
      = Cert.Affinity.robotRow ((((cfg0.win 2).blk t).view.emb y) 0) :=
    Fin.ext (by show (y 0).val = 0 * 2 + 1 * (y 0).val; omega)
  rw [e]

/-- What point t writes back is its block of the all-nodes array. -/
theorem flushed_eq (c : Dev nD) (t : Fin cfg0.N) :
    (dats m 0 c).flushed 2 t = ((cfg0.win 2).blk t).view.read (Elt F) (Cert.Affinity.affAll (m ((c : Thread nD τ).loc main_arg0))) := by
  funext y
  rw [View.read_apply, cast_eq]
  exact aff_congr (nodes_row m c t y 0) (nodes_row m c t y 1) (nodes_row m c t y 2) (nodes_row m c t y 4)
    (robots_row m c t y 0) (robots_row m c t y 1)

/-- The result window's block index at point t is (0, t). -/
theorem idx_facts : ∀ t : Fin cfg0.N, win0_2.index t (0 : Fin 2) = 0 ∧ win0_2.index t (1 : Fin 2) = t.val :=
  (by decide +kernel : ∀ t : Fin grid0.N, _)

/-- The columns point t writes back: all 28672 of its block if the block ends inside the array, else those up to the
    array's end. -/
theorem xsize_1 (t : Fin cfg0.N) :
    win0_2.xsize (grid0.coords t) (1 : Fin 2)
      = if (t.val + 1) * 28672 ≤ 8000002 then 28672 else 8000002 - t.val * 28672 := by
  show (Pipeline.Clip.of (win0_2.index t (1 : Fin 2)) 28672 8000002).extent 28672 = _
  rw [(idx_facts t).2]
  unfold Pipeline.Clip.of
  split <;> rfl

/-- Both rows are written back at every point. -/
theorem xsize_0 (t : Fin cfg0.N) : win0_2.xsize (grid0.coords t) (0 : Fin 2) = 2 := rfl

/-- An index of the array is in point t's block iff each coordinate is in the block's range on its axis, cut at the
    array's end. -/
theorem mem_blk (t : Fin cfg0.N) (i : S2x8000002.Idx) :
    i ∈ ((cfg0.win 2).blk t).view.set ↔ ∀ a : Fin 2, win0_2.index t a * S2x28672.size a ≤ (i a).val
      ∧ (i a).val < win0_2.index t a * S2x28672.size a + win0_2.xsize (grid0.coords t) a := by
  show i ∈ ((View.whole main_v1).slice (win0_2.rect t)).set ↔ _
  rw [View.set_slice_whole, Rect.mem_set_unit]
  exact Iff.rfl

/-- Column n of the array lies in the block of point n / 28672. -/
theorem cover (i : S2x8000002.Idx) :
    ∃ t : Fin cfg0.N, (cfg0.win 2).flush t = true ∧ i ∈ ((cfg0.win 2).blk t).view.set := by
  have h0 : (i 0).val < 2 := (i 0).isLt
  have h1 : (i 1).val < 8000002 := (i 1).isLt
  have hN : cfg0.N = 280 := N_0
  refine ⟨⟨(i 1).val / 28672, by rw [hN]; omega⟩, flush0_2 _, ?_⟩
  rw [mem_blk]
  intro a
  match a with
  | ⟨0, _⟩ =>
    show win0_2.index _ (0 : Fin 2) * 2 ≤ (i 0).val ∧ (i 0).val < win0_2.index _ (0 : Fin 2) * 2 + win0_2.xsize _ (0 : Fin 2)
    rw [(idx_facts _).1, xsize_0]; omega
  | ⟨1, _⟩ =>
    show win0_2.index _ (1 : Fin 2) * 28672 ≤ (i 1).val ∧ (i 1).val < win0_2.index _ (1 : Fin 2) * 28672 + win0_2.xsize _ (1 : Fin 2)
    rw [(idx_facts _).2, xsize_1]
    show (i 1).val / 28672 * 28672 ≤ (i 1).val ∧ (i 1).val < (i 1).val / 28672 * 28672 + (if ((i 1).val / 28672 + 1) * 28672 ≤ 8000002 then 28672 else 8000002 - (i 1).val / 28672 * 28672)
    split <;> omega

/-- After the run the result array holds every node against every robot. -/
theorem final (c : Dev nD) : (dats m 0 c).arrAt 2 cfg0.N = Cert.Affinity.affAll (m ((c : Thread nD τ).loc main_arg0)) :=
  (dats m 0 c).arrAt_eq_of_cover 2 _ (fun t _ => flushed_eq m c t) cover

/-- The slice that follows the region drops the robots' own two columns: the kernel's result is every frontier
    against every robot. -/
theorem tail_eq (c : Dev nD) :
    Pipeline.afterTail₀ cfgs (dats m) 0 (V0 m) [hostOps1] c main_v2 = Cert.Affinity.affRes (m ((c : Thread nD τ).loc main_arg0)) := by
  unfold Pipeline.afterTail₀
  show StableHlo.after hostOps1 _ (Proc.devRef .tc main_v2) = _
  after_results
  have hW : Pipeline.withArrays (cfgs 0).spec c (V0 m c) (fun w => (dats m 0 c).arrAt w (cfgs 0).N) (Proc.devRef .tc main_v1)
      = Cert.Affinity.affAll (m ((c : Thread nD τ).loc main_arg0)) :=
    (Pipeline.withArrays_arr spec0 launch0.win.arr_inj c _ _ 2).trans (final m c)
  rw [hW]
  funext j
  rw [Cert.Affinity.affRes_eq]
  refine extractStridedSlice_apply _ _ _ j _ fun a => ?_
  match a with
  | ⟨0, _⟩ => show (j 0).val = 0 + (j 0).val; omega
  | ⟨1, _⟩ => show (j 1).val + 2 = 2 + (j 1).val; omega

end Cert.KernelIdeal.HandValue

end
-- ==== Proof.RefValue.lean ====
/-
  The reference computes the affinity function.

  Entry (r, f) of the reference's result is
      (A[f+2, 2] + A[f+2, 4] + ε) / (√(0 + ((A[r, 0] − A[f+2, 0])² + (A[r, 1] − A[f+2, 1])²)) + ε),
  read off its operations one at a time: the slices shift the row by two or pick a column, the broadcasts repeat an
  entry along the new axis, the arithmetic is entrywise, and the sum over the coordinate axis has two terms. On the
  extended reals 0 + x = x, so this is the affinity of frontier f to robot r. No finiteness and no precondition.
-/
import proofs.«120496_j77670188580918_1_alg».proof.Proof.Gen.ReferenceIdeal.Read
import proofs.«120496_j77670188580918_1_alg».proof.Proof.Spec
import Idealize.ShloMosaic.Lib.ValueIdx
import Idealize.ShloMosaic.PureOps.Ideal
import Idealize.ShloMosaic.PureOps.Ideal.Laws
import Mathlib.Algebra.BigOperators.Fin

noncomputable section

namespace Cert.ReferenceIdeal.RefValue

open Cert.ReferenceIdeal Cert.ReferenceIdeal.Gen Cert.ReferenceIdeal.Read Cert.Affinity
open Idealize.ShloMosaic Idealize.ShloMosaic.ValueIdx
open scoped BigOperators

variable (A : (⟨S8000002x5, .f32⟩ : BufTy).Contents (Elt Ideal))

/-- Row p of the frontier slice is row p + 2 of the table. -/
theorem v1_at (p : Fin 8000000) (c : Fin 5) :
    val_main_v1 (F := Ideal) A (ix2 p c) = A (ix2 (frontierRow p) c) := by
  refine (val_main_v1_apply A _).trans (congrArg A ?_)
  funext a
  match a with
  | ⟨0, _⟩ => exact Fin.ext (by show 2 + p.val = p.val + 2; omega)
  | ⟨1, _⟩ => rfl

/-- The robots' slice is the first two columns of rows 0 and 1. -/
theorem v0_at (r k : Fin 2) :
    val_main_v0 (F := Ideal) A (ix2 r k) = A (ix2 (robotRow r) (⟨k.val, by have := k.isLt; omega⟩ : Fin 5)) := by
  refine (val_main_v0_apply A _).trans (congrArg A ?_)
  funext a
  match a with
  | ⟨0, _⟩ => rfl
  | ⟨1, _⟩ => rfl

/-- The robot's coordinate k, broadcast over the frontiers. -/
theorem v5_at (r : Fin 2) (f : Fin 8000000) (k : Fin 2) :
    val_main_v5 (F := Ideal) A (ix3 r f k) = A (ix2 (robotRow r) (⟨k.val, by have := k.isLt; omega⟩ : Fin 5)) := by
  refine (val_main_v5_apply A _).trans ?_
  refine (val_main_v3_apply A _).trans ?_
  refine Eq.trans (congrArg (val_main_v0 (F := Ideal) A) ?_) (v0_at A r k)
  funext a
  match a with
  | ⟨0, _⟩ => rfl
  | ⟨1, _⟩ => rfl

/-- The frontier's coordinate k, broadcast over the robots. -/
theorem v6_at (r : Fin 2) (f : Fin 8000000) (k : Fin 2) :
    val_main_v6 (F := Ideal) A (ix3 r f k) = A (ix2 (frontierRow f) (⟨k.val, by have := k.isLt; omega⟩ : Fin 5)) := by
  refine (val_main_v6_apply A _).trans ?_
  refine (val_main_v4_apply A _).trans ?_
  refine (val_main_v2_apply A _).trans ?_
  refine Eq.trans (congrArg (val_main_v1 (F := Ideal) A) ?_) (v1_at A f _)
  funext a
  match a with
  | ⟨0, _⟩ => rfl
  | ⟨1, _⟩ => rfl

/-- The squared difference along coordinate k. -/
theorem v8_at (r : Fin 2) (f : Fin 8000000) (k : Fin 2) :
    val_main_v8 (F := Ideal) A (ix3 r f k)
      = (A (ix2 (robotRow r) (⟨k.val, by have := k.isLt; omega⟩ : Fin 5)) - A (ix2 (frontierRow f) (⟨k.val, by have := k.isLt; omega⟩ : Fin 5)))
        * (A (ix2 (robotRow r) (⟨k.val, by have := k.isLt; omega⟩ : Fin 5)) - A (ix2 (frontierRow f) (⟨k.val, by have := k.isLt; omega⟩ : Fin 5))) := by
  have h7 : val_main_v7 (F := Ideal) A (ix3 r f k)
      = A (ix2 (robotRow r) (⟨k.val, by have := k.isLt; omega⟩ : Fin 5)) - A (ix2 (frontierRow f) (⟨k.val, by have := k.isLt; omega⟩ : Fin 5)) := by
    refine (val_main_v7_apply A _).trans ?_
    rw [v5_at, v6_at]
    rfl
  refine (val_main_v8_apply A _).trans ?_
  rw [h7]
  rfl

/-- The sum's index (r, f) at term k is the rank-3 index (r, f, k). -/
theorem idx9_eq (r : Fin 2) (f : Fin 8000000) (k : Fin 2) : idx_main_v9 (ix2 r f) k = ix3 r f k := by
  funext a
  match a with
  | ⟨0, _⟩ => rfl
  | ⟨1, _⟩ => rfl
  | ⟨2, _⟩ => rfl

/-- The squared distance: zero plus the two squared differences. -/
theorem v9_at (r : Fin 2) (f : Fin 8000000) :
    val_main_v9 (F := Ideal) A (ix2 r f)
      = (A (ix2 (robotRow r) (0 : Fin 5)) - A (ix2 (frontierRow f) (0 : Fin 5))) * (A (ix2 (robotRow r) (0 : Fin 5)) - A (ix2 (frontierRow f) (0 : Fin 5)))
        + (A (ix2 (robotRow r) (1 : Fin 5)) - A (ix2 (frontierRow f) (1 : Fin 5))) * (A (ix2 (robotRow r) (1 : Fin 5)) - A (ix2 (frontierRow f) (1 : Fin 5))) := by
  refine (val_main_v9_apply A _).trans ?_
  rw [Fin.sum_univ_two, idx9_eq, idx9_eq, v8_at, v8_at, val_main_cst_apply, Ideal.ofBits_def, Ideal.ofBits_zero_f32, zero_add]
  rfl

/-- The denominator: the distance plus ε. -/
theorem v12_at (r : Fin 2) (f : Fin 8000000) :
    val_main_v12 (F := Ideal) A (ix2 r f)
      = Ideal.sqrt ((A (ix2 (robotRow r) (0 : Fin 5)) - A (ix2 (frontierRow f) (0 : Fin 5))) * (A (ix2 (robotRow r) (0 : Fin 5)) - A (ix2 (frontierRow f) (0 : Fin 5)))
        + (A (ix2 (robotRow r) (1 : Fin 5)) - A (ix2 (frontierRow f) (1 : Fin 5))) * (A (ix2 (robotRow r) (1 : Fin 5)) - A (ix2 (frontierRow f) (1 : Fin 5))))
        + eps (F := Ideal) := by
  refine (val_main_v12_apply A _).trans ?_
  rw [val_main_v10_apply, v9_at, val_main_v11_apply, val_main_cst_0_apply]
  rfl

/-- Column c of the frontier slice, flattened: entry f is A[f + 2, c], for c = 2 … -/
theorem v14_at (f : Fin 8000000) :
    val_main_v14 (F := Ideal) A (ix1 f) = A (ix2 (frontierRow f) (2 : Fin 5)) := by
  refine (val_main_v14_apply A _).trans ?_
  refine (val_main_v13_apply A _).trans ?_
  refine Eq.trans (congrArg (val_main_v1 (F := Ideal) A) ?_) (v1_at A f _)
  funext a
  match a with
  | ⟨0, _⟩ => exact Fin.ext (Nat.div_one _)
  | ⟨1, _⟩ => rfl

/-- … and for c = 4. -/
theorem v16_at (f : Fin 8000000) :
    val_main_v16 (F := Ideal) A (ix1 f) = A (ix2 (frontierRow f) (4 : Fin 5)) := by
  refine (val_main_v16_apply A _).trans ?_
  refine (val_main_v15_apply A _).trans ?_
  refine Eq.trans (congrArg (val_main_v1 (F := Ideal) A) ?_) (v1_at A f _)
  funext a
  match a with
  | ⟨0, _⟩ => exact Fin.ext (Nat.div_one _)
  | ⟨1, _⟩ => rfl

/-- The numerator: the gain plus ε, the same for both robots. -/
theorem v21_at (r : Fin 2) (f : Fin 8000000) :
    val_main_v21 (F := Ideal) A (ix2 r f)
      = A (ix2 (frontierRow f) (2 : Fin 5)) + A (ix2 (frontierRow f) (4 : Fin 5)) + eps (F := Ideal) := by
  refine (val_main_v21_apply A _).trans ?_
  refine (val_main_v20_apply A _).trans ?_
  have e : idx_main_v20 (idx_main_v21 (ix2 r f)) = ix1 f := by
    funext a
    match a with
    | ⟨0, _⟩ => rfl
  rw [e, val_main_v19_apply, val_main_v17_apply, v14_at, v16_at, val_main_v18_apply, val_main_cst_1_apply]
  rfl

/-- The reference's result is the affinity of every frontier to every robot. -/
theorem ref_eq (A : (⟨S8000002x5, .f32⟩ : BufTy).Contents (Elt Ideal)) :
    Cert.ReferenceIdeal.Read.val_main_v22 A = Cert.Affinity.affRes (F := Ideal) A := by
  funext i
  obtain ⟨r, f, rfl⟩ : ∃ (r : Fin 2) (f : Fin 8000000), i = ix2 r f := ⟨i 0, i 1, eq_ix2 i⟩
  refine (val_main_v22_apply A _).trans ?_
  rw [v21_at, v12_at]
  rfl

/-- The run's composed term, read at the node table, is the affinity of every frontier to every robot. -/
theorem run_term_eq (A : (⟨S8000002x5, .f32⟩ : BufTy).Contents (Elt Ideal)) :
    Host.divf (F := Ideal) (broadcastInDim S2x8000000 ![0, 1] bcast_S1x8000000_S2x8000000_0_1 (broadcastInDim S1x8000000 ![1] bcast_S8000000_S1x8000000_1 (addf (addf (shapeCast _ (extractStridedSlice S8000000x1 ![0, 2] (extractStridedSlice S8000000x5 ![2, 0] (A) slices_S8000002x5_S8000000x5_2_0) slices_S8000000x5_S8000000x1_0_2) shapeCasts_S8000000x1_S8000000) (shapeCast _ (extractStridedSlice S8000000x1 ![0, 4] (extractStridedSlice S8000000x5 ![2, 0] (A) slices_S8000002x5_S8000000x5_2_0) slices_S8000000x5_S8000000x1_0_4) shapeCasts_S8000000x1_S8000000)) (broadcastInDim S8000000 ![] bcast_S_S8000000 (constant (F := Ideal) S_ .f32 0x358637BD#32))))) (addf (Host.sqrt (F := Ideal) (Host.reduceAdd (F := Ideal) (mulf (subf (broadcastInDim S2x8000000x2 ![0, 1, 2] bcast_S2x1x2_S2x8000000x2_0_1_2 (broadcastInDim S2x1x2 ![0, 2] bcast_S2x2_S2x1x2_0_2 (extractStridedSlice S2x2 ![0, 0] (A) slices_S8000002x5_S2x2_0_0))) (broadcastInDim S2x8000000x2 ![0, 1, 2] bcast_S1x8000000x2_S2x8000000x2_0_1_2 (broadcastInDim S1x8000000x2 ![1, 2] bcast_S8000000x2_S1x8000000x2_1_2 (extractStridedSlice S8000000x2 ![0, 0] (extractStridedSlice S8000000x5 ![2, 0] (A) slices_S8000002x5_S8000000x5_2_0) slices_S8000000x5_S8000000x2_0_0)))) (subf (broadcastInDim S2x8000000x2 ![0, 1, 2] bcast_S2x1x2_S2x8000000x2_0_1_2 (broadcastInDim S2x1x2 ![0, 2] bcast_S2x2_S2x1x2_0_2 (extractStridedSlice S2x2 ![0, 0] (A) slices_S8000002x5_S2x2_0_0))) (broadcastInDim S2x8000000x2 ![0, 1, 2] bcast_S1x8000000x2_S2x8000000x2_0_1_2 (broadcastInDim S1x8000000x2 ![1, 2] bcast_S8000000x2_S1x8000000x2_1_2 (extractStridedSlice S8000000x2 ![0, 0] (extractStridedSlice S8000000x5 ![2, 0] (A) slices_S8000002x5_S8000000x5_2_0) slices_S8000000x5_S8000000x2_0_0))))) (constant (F := Ideal) S_ .f32 0x00000000#32) reducesTo_S2x8000000x2_S2x8000000_d2 h_S_)) (broadcastInDim S2x8000000 ![] bcast_S_S2x8000000 (constant (F := Ideal) S_ .f32 0x358637BD#32)))
      = Cert.Affinity.affRes (F := Ideal) A :=
  (val_main_v22_eq (F := Ideal) A).trans (ref_eq A)

end Cert.ReferenceIdeal.RefValue

end
-- ==== Proof.lean ====
/-
  Two programs for one table of affinities, and why they agree.

  A node is a row (x, y, ·, g₂, ·, g₄ …) of a table of 8000002 rows of five; rows 0 and 1 are two robots, the rest
  are frontiers. The affinity of node n to robot r is
      (n₂ + n₄ + ε) / (√((r_x − n_x)² + (r_y − n_y)²) + ε),          ε the f32 nearest 1e-6.
  The reference computes it for the frontiers, as a 2 × 8000000 array, the squared distance as a sum over the two
  coordinates from 0. The kernel computes it for ALL nodes, the robots included, in 280 blocks of 28672 nodes — the
  last block reaching past the table, where its buffer holds words nothing names —, writes the blocks into a
  2 × 8000002 array, the last one cut at the array's end, and then drops the robots' two columns.

  At the ideal instance every operation is the exact one on the extended reals and the kernel's and the host's
  division and square root are the same functions, so entry (r, f) is the same expression on both sides up to
  0 + s = s for the reference's sum. Nothing needs the inputs finite. Column q of a result block reads row q of the
  node block only, so no kept column reads a row past the table.

  Modules: Spec (the function), PayAt (the body's two stored rows at an index), Data and Body (the proof data, the
  body's triple and the run; DataW, PayAtW, BodyW the same for the word-level program), KernelValue (the result array
  read off the run), RefValue (the reference read at an index).
-/
import proofs.«120496_j77670188580918_1_alg».proof.Defs
import proofs.«120496_j77670188580918_1_alg».proof.Proof.Gen.Kernel
import proofs.«120496_j77670188580918_1_alg».proof.Proof.Gen.Kernel.Skeleton
import proofs.«120496_j77670188580918_1_alg».proof.Proof.Gen.Kernel.Launch
import proofs.«120496_j77670188580918_1_alg».proof.Proof.Gen.Kernel.Points
import proofs.«120496_j77670188580918_1_alg».proof.Proof.Gen.Kernel.Frame
import proofs.«120496_j77670188580918_1_alg».proof.Proof.Gen.KernelIdeal
import proofs.«120496_j77670188580918_1_alg».proof.Proof.Gen.KernelIdeal.Skeleton
import proofs.«120496_j77670188580918_1_alg».proof.Proof.Gen.KernelIdeal.Launch
import proofs.«120496_j77670188580918_1_alg».proof.Proof.Gen.KernelIdeal.Points
import proofs.«120496_j77670188580918_1_alg».proof.Proof.Gen.KernelIdeal.Frame
import proofs.«120496_j77670188580918_1_alg».proof.Proof.Gen.ReferenceIdeal
import proofs.«120496_j77670188580918_1_alg».proof.Proof.Gen.Pre_finite_inputs
import proofs.«120496_j77670188580918_1_alg».proof.Proof.Gen.ReferenceIdeal.Run
import proofs.«120496_j77670188580918_1_alg».proof.Proof.Gen.ReferenceIdeal.Read
import proofs.«120496_j77670188580918_1_alg».proof.Proof.Body
import proofs.«120496_j77670188580918_1_alg».proof.Proof.BodyW
import proofs.«120496_j77670188580918_1_alg».proof.Proof.KernelValue
import proofs.«120496_j77670188580918_1_alg».proof.Proof.RefValue
import Idealize.ShloMosaic.Adequacy
import Idealize.ShloMosaic.Init

noncomputable section

namespace Cert.Proof

open Idealize.ShloMosaic Idealize.ShloMosaic.TcCoe Idealize.SL.Sem

/-! ## The kernel's run at the ideal instance, with its result named -/

section KernelRun
open Cert.KernelIdeal Cert.KernelIdeal.Gen Cert.KernelIdeal.Hand

/-- Every weakly fair execution of the idealized kernel terminates with the result at `affRes` of the node table and
    the three arguments unchanged: the run's post read at the result (what the host slice leaves of the array the
    blocks were written into) and at the arguments. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2) = Cert.Affinity.affRes (F := Ideal) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v2 (Pipeline.mem_restRefs_of main_v2 (by decide) (by decide))).trans (HandValue.tail_eq m c),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end KernelRun

/-! ## The claims -/

/-- The word-level kernel runs to the end, faults nowhere and leaves its arguments as they were. -/
theorem frame_p : Cert.frame_Kernel := fun m ρ _ => Cert.Kernel.Hand.frame m ρ
/-- So does the idealized kernel. -/
theorem frame_pi : Cert.frame_KernelIdeal := fun m ρ _ => Cert.KernelIdeal.Hand.frame m ρ
/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the kernel's own text. -/
theorem preserves : Cert.preserves_Kernel_KernelIdeal := trivial

/-- From memories agreeing on the node table both programs end with the result at `affRes` of it. -/
theorem algebraic : Cert.algebraic_KernelIdeal_ReferenceIdeal := by
  intro m ρ m' ρ' _ hagree
  refine ⟨fun c => Cert.Affinity.affRes (F := Ideal) (m ((c.tc : Thread Cert.KernelIdeal.nD Cert.KernelIdeal.τ).loc Cert.KernelIdeal.main_arg0)),
    kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1]
  exact Cert.ReferenceIdeal.RefValue.run_term_eq _

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
